-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x5 : Shape := ⟨2, ![4194304, 5]⟩
abbrev S_ : Shape := ⟨0, ![]⟩

class Facts : Prop where
  bcast_S_S4194304x5 : S_.BroadcastsInDim S4194304x5 (![] : Fin 0 → Fin S4194304x5.rank)
  reducesTo_S4194304x5_S_d0_1 : S4194304x5.ReducesTo [0, 1] S_
  h_S_ : 0 < S_.numel

variable [Facts]

def fn {F : FTy → Type} [FloatOps F] (main_arg0 : FVec F S4194304x5 .f32) (main_arg1 : FVec F S4194304x5 .f32) : IVec S_ 1 :=
  let main_v0 : FVec F S4194304x5 .f32 := Host.absf main_arg0
  let main_cst : FVec F S_ .f32 := constant S_ .f32 0x7F800000#32
  let main_v1 : FVec F S4194304x5 .f32 := broadcastInDim S4194304x5 ![] bcast_S_S4194304x5 main_cst
  let main_v2 : IVec S4194304x5 1 := cmpf .olt main_v0 main_v1
  let main_c : IVec S_ 1 := constantI S_ 1 1#1
  let main_v3 : IVec S_ 1 := (fun x v => Host.reduce IntOp.andi x v reducesTo_S4194304x5_S_d0_1 h_S_) main_v2 main_c
  let main_v4 : FVec F S4194304x5 .f32 := Host.absf main_arg1
  let main_cst_0 : FVec F S_ .f32 := constant S_ .f32 0x7F800000#32
  let main_v5 : FVec F S4194304x5 .f32 := broadcastInDim S4194304x5 ![] bcast_S_S4194304x5 main_cst_0
  let main_v6 : IVec S4194304x5 1 := cmpf .olt main_v4 main_v5
  let main_c_1 : IVec S_ 1 := constantI S_ 1 1#1
  let main_v7 : IVec S_ 1 := (fun x v => Host.reduce IntOp.andi x v reducesTo_S4194304x5_S_d0_1 h_S_) main_v6 main_c_1
  let main_v8 : IVec S_ 1 := andi main_v3 main_v7
  main_v8
-- ==== Kernel.lean ====
abbrev S4194304x5 : Shape := ⟨2, ![4194304, 5]⟩
abbrev S5x4194304 : Shape := ⟨2, ![5, 4194304]⟩
abbrev S1x2 : Shape := ⟨2, ![1, 2]⟩
abbrev S5x32768 : Shape := ⟨2, ![5, 32768]⟩
abbrev S1x32768 : Shape := ⟨2, ![1, 32768]⟩
abbrev S4x32768 : Shape := ⟨2, ![4, 32768]⟩
abbrev S1 : Shape := ⟨1, ![1]⟩
abbrev S1x1 : Shape := ⟨2, ![1, 1]⟩
abbrev S_ : Shape := ⟨0, ![]⟩

abbrev nBuf : Space → Nat
  | .hbm => 16
  | .vmem => 5
  | .smem => 0
  | _ => 0

abbrev bufTy : (tb : Table) → Fin (tcTables nBuf tb) → BufTy
  | .hbm, ⟨0, _⟩ => ⟨S4194304x5, .f32⟩
  | .hbm, ⟨1, _⟩ => ⟨S4194304x5, .f32⟩
  | .hbm, ⟨2, _⟩ => ⟨S5x4194304, .f32⟩
  | .hbm, ⟨3, _⟩ => ⟨S5x4194304, .f32⟩
  | .hbm, ⟨4, _⟩ => ⟨S1x2, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S5x32768, .f32⟩
  | .local _ .vmem, ⟨1, _⟩ => ⟨S5x32768, .f32⟩
  | .local _ .vmem, ⟨2, _⟩ => ⟨S5x32768, .f32⟩
  | .local _ .vmem, ⟨3, _⟩ => ⟨S5x32768, .f32⟩
  | .local _ .vmem, ⟨4, _⟩ => ⟨S1x2, .f32⟩
  | _, _ => ⟨S4194304x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S4194304x5_S5x4194304_1_0 : S4194304x5.Transposes [1, 0] S5x4194304
  inb_S1x2_S1x2_0_0 : ∀ a, (![0, 0] : Fin 2 → Nat) a + S1x2.size a ≤ S1x2.size a
  h_S1x2 : 0 < S1x2.numel
  inb_S5x32768_S1x32768_0_0 : ∀ a, (![0, 0] : Fin 2 → Nat) a + S1x32768.size a ≤ S5x32768.size a
  h_S1x32768 : 0 < S1x32768.numel
  shapeCasts_S1x32768_S1x32768 : S1x32768.ShapeCasts S1x32768
  inb_S5x32768_S4x32768_1_0 : ∀ a, (![1, 0] : Fin 2 → Nat) a + S4x32768.size a ≤ S5x32768.size a
  h_S4x32768 : 0 < S4x32768.numel
  shapeCasts_S4x32768_S4x32768 : S4x32768.ShapeCasts S4x32768
  slices_S4x32768_o0_0_S1x32768 : S4x32768.Slices ![0, 0] S1x32768
  slices_S4x32768_o1_0_S1x32768 : S4x32768.Slices ![1, 0] S1x32768
  slices_S4x32768_o2_0_S1x32768 : S4x32768.Slices ![2, 0] S1x32768
  slices_S4x32768_o3_0_S1x32768 : S4x32768.Slices ![3, 0] S1x32768
  reduces_S1x32768_S1 : S1x32768.Reduces [1] S1
  shapeCasts_S1_S1x1 : S1.ShapeCasts S1x1
  inb_S1x2_S1x1_0_0 : ∀ a, (![0, 0] : Fin 2 → Nat) a + S1x1.size a ≤ S1x2.size a
  h_S1x1 : 0 < S1x1.numel
  shapeCasts_S1x1_S1x1 : S1x1.ShapeCasts S1x1
  inb_S1x2_S1x1_0_1 : ∀ a, (![0, 1] : Fin 2 → Nat) a + S1x1.size a ≤ S1x2.size a
  slices_S1x2_S1x1_0_0 : S1x2.Slices ![0, 0] S1x1
  shapeCasts_S1x1_S_ : S1x1.ShapeCasts S_
  slices_S1x2_S1x1_0_1 : S1x2.Slices ![0, 1] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x32768.size a ≤ S5x4194304.size a
  hwx0_0 : ∀ i : grid0.Coords, EltTy.bits .f32 = 32 ∨ (Rect.block (s := S5x4194304) S5x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x32768.size a ≤ S5x4194304.size a
  hwx0_1 : ∀ i : grid0.Coords, EltTy.bits .f32 = 32 ∨ (Rect.block (s := S5x4194304) S5x32768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)

variable [Facts₀]

abbrev win0_0 : Pipeline.Window sig grid0 :=
  Pipeline.Window.ofSpec (Memref.whole main_v0) S5x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x5 : Shape := ⟨2, ![4194304, 5]⟩
abbrev S4194304x4 : Shape := ⟨2, ![4194304, 4]⟩
abbrev S_ : Shape := ⟨0, ![]⟩
abbrev S4194304x1 : Shape := ⟨2, ![4194304, 1]⟩
abbrev S4194304 : Shape := ⟨1, ![4194304]⟩

abbrev nBuf : Space → Nat
  | .hbm => 108
  | .vmem => 0
  | .smem => 0
  | _ => 0

abbrev bufTy : (tb : Table) → Fin (tcTables nBuf tb) → BufTy
  | .hbm, ⟨0, _⟩ => ⟨S4194304x5, .f32⟩
  | .hbm, ⟨1, _⟩ => ⟨S4194304x5, .f32⟩
  | .hbm, ⟨2, _⟩ => ⟨S4194304x4, .f32⟩
  | .hbm, ⟨3, _⟩ => ⟨S4194304x4, .f32⟩
  | .hbm, ⟨4, _⟩ => ⟨S4194304x4, .f32⟩
  | .hbm, ⟨5, _⟩ => ⟨S_, .f32⟩
  | .hbm, ⟨6, _⟩ => ⟨S4194304x4, .f32⟩
  | .hbm, ⟨7, _⟩ => ⟨S4194304x4, .f32⟩
  | .hbm, ⟨8, _⟩ => ⟨S_, .f32⟩
  | .hbm, ⟨9, _⟩ => ⟨S4194304x4, .f32⟩
  | .hbm, ⟨10, _⟩ => ⟨S4194304x4, .f32⟩
  | .hbm, ⟨11, _⟩ => ⟨S4194304x4, .f32⟩
  | .hbm, ⟨12, _⟩ => ⟨S4194304x1, .f32⟩
  | .hbm, ⟨13, _⟩ => ⟨S4194304, .f32⟩
  | .hbm, ⟨14, _⟩ => ⟨S4194304x1, .f32⟩
  | .hbm, ⟨15, _⟩ => ⟨S4194304, .f32⟩
  | .hbm, ⟨16, _⟩ => ⟨S4194304, .f32⟩
  | .hbm, ⟨17, _⟩ => ⟨S4194304, .f32⟩
  | .hbm, ⟨18, _⟩ => ⟨S4194304x1, .f32⟩
  | .hbm, ⟨19, _⟩ => ⟨S4194304, .f32⟩
  | .hbm, ⟨20, _⟩ => ⟨S4194304x1, .f32⟩
  | .hbm, ⟨21, _⟩ => ⟨S4194304, .f32⟩
  | .hbm, ⟨22, _⟩ => ⟨S4194304, .f32⟩
  | .hbm, ⟨23, _⟩ => ⟨S4194304, .f32⟩
  | .hbm, ⟨24, _⟩ => ⟨S4194304, .f32⟩
  | .hbm, ⟨25, _⟩ => ⟨S4194304x1, .f32⟩
  | .hbm, ⟨26, _⟩ => ⟨S4194304, .f32⟩
  | .hbm, ⟨27, _⟩ => ⟨S4194304x1, .f32⟩
  | .hbm, ⟨28, _⟩ => ⟨S4194304, .f32⟩
  | .hbm, ⟨29, _⟩ => ⟨S4194304, .f32⟩
  | .hbm, ⟨30, _⟩ => ⟨S4194304x1, .f32⟩
  | .hbm, ⟨31, _⟩ => ⟨S4194304, .f32⟩
  | .hbm, ⟨32, _⟩ => ⟨S4194304x1, .f32⟩
  | .hbm, ⟨33, _⟩ => ⟨S4194304, .f32⟩
  | .hbm, ⟨34, _⟩ => ⟨S4194304, .f32⟩
  | .hbm, ⟨35, _⟩ => ⟨S4194304, .f32⟩
  | .hbm, ⟨36, _⟩ => ⟨S4194304x1, .f32⟩
  | .hbm, ⟨37, _⟩ => ⟨S4194304, .f32⟩
  | .hbm, ⟨38, _⟩ => ⟨S4194304x1, .f32⟩
  | .hbm, ⟨39, _⟩ => ⟨S4194304, .f32⟩
  | .hbm, ⟨40, _⟩ => ⟨S4194304, .f32⟩
  | .hbm, ⟨41, _⟩ => ⟨S4194304x1, .f32⟩
  | .hbm, ⟨42, _⟩ => ⟨S4194304, .f32⟩
  | .hbm, ⟨43, _⟩ => ⟨S4194304x1, .f32⟩
  | .hbm, ⟨44, _⟩ => ⟨S4194304, .f32⟩
  | .hbm, ⟨45, _⟩ => ⟨S4194304, .f32⟩
  | .hbm, ⟨46, _⟩ => ⟨S4194304x1, .f32⟩
  | .hbm, ⟨47, _⟩ => ⟨S4194304, .f32⟩
  | .hbm, ⟨48, _⟩ => ⟨S4194304x1, .f32⟩
  | .hbm, ⟨49, _⟩ => ⟨S4194304, .f32⟩
  | .hbm, ⟨50, _⟩ => ⟨S4194304, .f32⟩
  | .hbm, ⟨51, _⟩ => ⟨S4194304x1, .f32⟩
  | .hbm, ⟨52, _⟩ => ⟨S4194304, .f32⟩
  | .hbm, ⟨53, _⟩ => ⟨S4194304x1, .f32⟩
  | .hbm, ⟨54, _⟩ => ⟨S4194304, .f32⟩
  | .hbm, ⟨55, _⟩ => ⟨S4194304, .f32⟩
  | .hbm, ⟨56, _⟩ => ⟨S4194304x1, .f32⟩
  | .hbm, ⟨57, _⟩ => ⟨S4194304, .f32⟩
  | .hbm, ⟨58, _⟩ => ⟨S4194304, .f32⟩
  | .hbm, ⟨59, _⟩ => ⟨S4194304x1, .f32⟩
  | .hbm, ⟨60, _⟩ => ⟨S4194304, .f32⟩
  | .hbm, ⟨61, _⟩ => ⟨S4194304, .f32⟩
  | .hbm, ⟨62, _⟩ => ⟨S4194304x1, .f32⟩
  | .hbm, ⟨63, _⟩ => ⟨S4194304, .f32⟩
  | .hbm, ⟨64, _⟩ => ⟨S4194304, .f32⟩
  | .hbm, ⟨65, _⟩ => ⟨S4194304x1, .f32⟩
  | .hbm, ⟨66, _⟩ => ⟨S4194304, .f32⟩
  | .hbm, ⟨67, _⟩ => ⟨S4194304, .f32⟩
  | .hbm, ⟨68, _⟩ => ⟨S4194304, .f32⟩
  | .hbm, ⟨69, _⟩ => ⟨S4194304, .f32⟩
  | .hbm, ⟨70, _⟩ => ⟨S4194304, .f32⟩
  | .hbm, ⟨71, _⟩ => ⟨S_, .f32⟩
  | .hbm, ⟨72, _⟩ => ⟨S4194304, .f32⟩
  | .hbm, ⟨73, _⟩ => ⟨S4194304, .i1⟩
  | .hbm, ⟨74, _⟩ => ⟨S4194304, .f32⟩
  | .hbm, ⟨75, _⟩ => ⟨S4194304, .f32⟩
  | .hbm, ⟨76, _⟩ => ⟨S4194304, .f32⟩
  | .hbm, ⟨77, _⟩ => ⟨S_, .f32⟩
  | .hbm, ⟨78, _⟩ => ⟨S4194304, .f32⟩
  | .hbm, ⟨79, _⟩ => ⟨S4194304, .f32⟩
  | .hbm, ⟨80, _⟩ => ⟨S_, .f32⟩
  | .hbm, ⟨81, _⟩ => ⟨S4194304, .f32⟩
  | .hbm, ⟨82, _⟩ => ⟨S4194304, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S4194304x1, .f32⟩
  | .hbm, ⟨88, _⟩ => ⟨S4194304, .f32⟩
  | .hbm, ⟨89, _⟩ => ⟨S4194304x1, .f32⟩
  | .hbm, ⟨90, _⟩ => ⟨S4194304, .f32⟩
  | .hbm, ⟨91, _⟩ => ⟨S_, .f32⟩
  | .hbm, ⟨92, _⟩ => ⟨S4194304, .f32⟩
  | .hbm, ⟨93, _⟩ => ⟨S4194304, .f32⟩
  | .hbm, ⟨94, _⟩ => ⟨S4194304, .f32⟩
  | .hbm, ⟨95, _⟩ => ⟨S4194304, .f32⟩
  | .hbm, ⟨96, _⟩ => ⟨S4194304, .f32⟩
  | .hbm, ⟨97, _⟩ => ⟨S4194304, .f32⟩
  | .hbm, ⟨98, _⟩ => ⟨S4194304, .f32⟩
  | .hbm, ⟨99, _⟩ => ⟨S4194304, .f32⟩
  | .hbm, ⟨100, _⟩ => ⟨S4194304, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S4194304x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_cst_1 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_cst_2 : Ref sig .tc := ⟨.hbm, 77, rfl⟩
abbrev main_call0_v0 : Ref sig .tc := ⟨.hbm, 78, rfl⟩
abbrev main_v72 : Ref sig .tc := ⟨.hbm, 79, rfl⟩
abbrev main_cst_3 : Ref sig .tc := ⟨.hbm, 80, rfl⟩
abbrev main_v73 : Ref sig .tc := ⟨.hbm, 81, rfl⟩
abbrev main_v74 : Ref sig .tc := ⟨.hbm, 82, rfl⟩
abbrev main_cst_4 : Ref sig .tc := ⟨.hbm, 83, rfl⟩
abbrev main_v75 : Ref sig .tc := ⟨.hbm, 84, rfl⟩
abbrev main_cst_5 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_6 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_7 : Ref sig .tc := ⟨.hbm, 101, rfl⟩
abbrev main_v90 : Ref sig .tc := ⟨.hbm, 102, rfl⟩
abbrev main_cst_8 : Ref sig .tc := ⟨.hbm, 103, rfl⟩
abbrev main_v91 : Ref sig .tc := ⟨.hbm, 104, rfl⟩
abbrev main_cst_9 : Ref sig .tc := ⟨.hbm, 105, rfl⟩
abbrev main_v92 : Ref sig .tc := ⟨.hbm, 106, rfl⟩
abbrev main_v93 : Ref sig .tc := ⟨.hbm, 107, rfl⟩

abbrev nD : Nat := 1
abbrev τ : Topo := Topo.v7x

variable {F : FTy → Type} [FloatOps F]

class Facts₀ : Prop where
  slices_S4194304x5_S4194304x4_0_1 : S4194304x5.Slices ![0, 1] S4194304x4
  bcast_S_S4194304x4 : S_.BroadcastsInDim S4194304x4 (![] : Fin 0 → Fin S4194304x4.rank)
  slices_S4194304x4_S4194304x1_0_2 : S4194304x4.Slices ![0, 2] S4194304x1
  shapeCasts_S4194304x1_S4194304 : S4194304x1.ShapeCasts S4194304
  slices_S4194304x4_S4194304x1_0_0 : S4194304x4.Slices ![0, 0] S4194304x1
  slices_S4194304x4_S4194304x1_0_3 : S4194304x4.Slices ![0, 3] S4194304x1
  slices_S4194304x4_S4194304x1_0_1 : S4194304x4.Slices ![0, 1] S4194304x1
  bcast_S_S4194304 : S_.BroadcastsInDim S4194304 (![] : Fin 0 → Fin S4194304.rank)
  reducesTo_S4194304_S_d0 : S4194304.ReducesTo [0] S_
  h_S_ : 0 < S_.numel
  slices_S4194304x5_S4194304x1_0_0 : S4194304x5.Slices ![0, 0] S4194304x1

variable [Facts₀]

class Facts : Prop extends Facts₀ where

variable [Facts]
-- ==== Proof.Spec.lean ====
/-
  The box loss both programs compute, stated once over the extended reals.

  Each of the 4,194,304 anchors carries five predictions x₀ … x₄ and five targets y₀ … y₄. The objectness pair (x₀, y₀)
  contributes the binary cross-entropy with logits  max(x₀, 0) − x₀·y₀ + log(1 + exp(−|x₀|));  the box pair contributes
  1 − IoU of the predicted box (corners σ(x₁) … σ(x₄), σ the logistic function, ordered by min / max per axis) with the
  target box (y₁ … y₄), the IoU replaced by 0 where the overlap product is negative. The loss is
      0.2 · (Σₙ bce n) / 4194304  +  (Σₙ (1 − iou n)) / 4194304 .
  The kernel adds the anchors up 32,768 at a time into a running total; the reference adds them all at once. A sum over
  consecutive blocks is the sum over their union in any commutative monoid, so the two totals agree on the extended reals
  with no finiteness assumption.
-/
import Idealize.ShloMosaic.PureOps.Ideal
import Idealize.ShloMosaic.PureOps.Ideal.Laws
import Idealize.ShloMosaic.Lib.ValueIdx

noncomputable section

open Idealize.ShloMosaic

namespace Cert.BoxLoss

/-- The extended reals, as the values of an f32 at the ideal instance. -/
abbrev E : Type := Ideal .f32

/-- The literals +0.0 and 1.0 as both programs spell them. -/
abbrev zeroLit : E := Ideal.ofBits .f32 0x00000000#32
abbrev oneLit : E := Ideal.ofBits .f32 0x3F800000#32

theorem zeroLit_eq : zeroLit = 0 := Ideal.ofBits_zero_f32
theorem oneLit_eq : oneLit = 1 := by
  show Ideal.ofBits .f32 0x3F800000#32 = 1
  simp [Ideal.ofBits, Ideal.ieee, -EReal.coe_mul]; norm_num

/-- One anchor's IoU from the four box logits and the four target coordinates: the predicted corners are the logistic
    function of the logits; the areas, the ordered corners, the overlap product and the quotient follow the source line
    by line; where the overlap product is negative the IoU is replaced by zero. -/
def iou (p1 p2 p3 p4 t0 t1 t2 t3 : E) : E :=
  let s0 : E := FloatOps.logistic p1
  let s1 : E := FloatOps.logistic p2
  let s2 : E := FloatOps.logistic p3
  let s3 : E := FloatOps.logistic p4
  let predArea : E := FloatOps.mulf (FloatOps.absf (FloatOps.subf s2 s0)) (FloatOps.absf (FloatOps.subf s3 s1))
  let targetArea : E := FloatOps.mulf (FloatOps.subf t2 t0) (FloatOps.subf t3 t1)
  let x1 : E := FloatOps.maximumf (FloatOps.minimumf s2 s0) t0
  let x2 : E := FloatOps.minimumf (FloatOps.maximumf s2 s0) t2
  let y1 : E := FloatOps.maximumf (FloatOps.minimumf s1 s3) t1
  let y2 : E := FloatOps.minimumf (FloatOps.maximumf s1 s3) t3
  let overlap : E := FloatOps.mulf (FloatOps.subf x2 x1) (FloatOps.subf y2 y1)
  let denom : E := FloatOps.subf (FloatOps.addf targetArea predArea) overlap
  Scalar.select (FloatOps.cmpf .olt overlap zeroLit) zeroLit (FloatOps.divf overlap denom)

/-- One anchor's IoU-loss term. -/
def iouLoss (p1 p2 p3 p4 t0 t1 t2 t3 : E) : E := FloatOps.subf oneLit (iou p1 p2 p3 p4 t0 t1 t2 t3)

/-- One anchor's objectness term: the cross-entropy of the logit `x` against the label `y` in its stable form. -/
def bceLoss (x y : E) : E :=
  FloatOps.addf (FloatOps.subf (FloatOps.maximumf x zeroLit) (FloatOps.mulf x y))
    (FloatOps.log1p (FloatOps.exp (FloatOps.subf zeroLit (FloatOps.absf x))))

/-- The logistic function is the quotient the reference spells: 1 / (1 + exp(−x)), the ones being the literal 1.0. -/
theorem logistic_eq_quotient (x : E) :
    (FloatOps.logistic x : E) = FloatOps.hostDivf oneLit (FloatOps.addf oneLit (FloatOps.hostUnary .exp (FloatOps.hostNegf x))) := by
  show Ideal.logistic x = Ideal.div oneLit (oneLit + Ideal.exp (-x))
  rw [oneLit_eq]; rfl

/-- Negation is subtraction from the literal zero. -/
theorem neg_eq_zero_sub (a : E) : (FloatOps.hostNegf a : E) = FloatOps.subf zeroLit a := by
  show -a = zeroLit - a
  rw [zeroLit_eq, zero_sub]

/-! ## The loss of two [4194304, 5] arrays -/

/-- An argument array read at the ideal instance: anchor by column. -/
abbrev Arr : Type := (⟨2, ![4194304, 5]⟩ : Shape).Idx → E

/-- Anchor `n`'s IoU-loss term: columns 1 … 4 of the predictions and of the targets. -/
def iouAt (P T : Arr) (n : Fin 4194304) : E :=
  iouLoss (P (ValueIdx.ix2 n 1)) (P (ValueIdx.ix2 n 2)) (P (ValueIdx.ix2 n 3)) (P (ValueIdx.ix2 n 4))
    (T (ValueIdx.ix2 n 1)) (T (ValueIdx.ix2 n 2)) (T (ValueIdx.ix2 n 3)) (T (ValueIdx.ix2 n 4))

/-- Anchor `n`'s cross-entropy term: column 0 of each. -/
def bceAt (P T : Arr) (n : Fin 4194304) : E := bceLoss (P (ValueIdx.ix2 n 0)) (T (ValueIdx.ix2 n 0))

/-- The anchor count 4194304.0 and the coefficient 0.2 as both programs spell them. -/
abbrev countLit : E := Ideal.ofBits .f32 0x4A800000#32
abbrev coeffLit : E := Ideal.ofBits .f32 0x3E4CCCCD#32

/-- The loss from the two totals: each divided by the anchor count, the cross-entropy mean weighted by 0.2. -/
def combine (sIou sBce : E) : E :=
  FloatOps.addf (FloatOps.mulf coeffLit (FloatOps.hostDivf sBce countLit)) (FloatOps.hostDivf sIou countLit)

/-- The loss of the two arrays. -/
def total (P T : Arr) : E := combine (zeroLit + ∑ n, iouAt P T n) (zeroLit + ∑ n, bceAt P T n)

/-! ## A total taken block by block -/

section Sums

variable {M : Type*} [AddCommMonoid M]

/-- A family over `Fin N` continued by zero past its range, so that it can be summed over ranges of naturals. -/
def ext {N : ℕ} (g : Fin N → M) (k : ℕ) : M := if h : k < N then g ⟨k, h⟩ else 0

theorem ext_of_lt {N : ℕ} (g : Fin N → M) {k : ℕ} (h : k < N) : ext g k = g ⟨k, h⟩ := dif_pos h

/-- The whole sum is the sum of the continued family over the first `N` naturals. -/
theorem sum_univ_eq_sum_range_ext {N : ℕ} (g : Fin N → M) : ∑ n : Fin N, g n = ∑ k ∈ Finset.range N, ext g k := by
  rw [← Fin.sum_univ_eq_sum_range (ext g) N]
  exact Finset.sum_congr rfl fun n _ => (ext_of_lt g n.isLt).symm

/-- One more block of `b` terms: the first `(n + 1)·b` terms are the first `n·b` followed by the block at `n·b`. -/
theorem sum_range_succ_mul (f : ℕ → M) (n b : ℕ) :
    ∑ k ∈ Finset.range ((n + 1) * b), f k = ∑ k ∈ Finset.range (n * b), f k + ∑ l : Fin b, f (n * b + l.val) := by
  rw [Nat.succ_mul, Finset.sum_range_add, Fin.sum_univ_eq_sum_range (fun l => f (n * b + l)) b]

/-- A sum over the indices of a one-axis shape is the sum over that axis's coordinates. -/
theorem sum_idx1 {n : ℕ} (f : (⟨1, ![n]⟩ : Shape).Idx → M) : ∑ j, f j = ∑ a : Fin n, f (ValueIdx.ix1 a) :=
  Fintype.sum_equiv ⟨fun j => j 0, ValueIdx.ix1, fun j => (ValueIdx.eq_ix1 j).symm, fun _ => rfl⟩ _ _
    fun j => congrArg f (ValueIdx.eq_ix1 j)

end Sums

end Cert.BoxLoss

end
-- ==== Proof.RefTotal.lean ====
/-
  The reference computes the box loss of the specification.

  The reference slices columns out of the two [4194304, 5] arrays, applies the logistic function to the box columns as
  the quotient 1 / (1 + exp(−x)), and forms the two per-anchor terms as whole vectors of length 4,194,304 before summing
  each. Read at anchor `n`, every column slice and reshape lands on row `n` of the argument array, so the two summands
  are the specification's terms of anchor `n`, and the result is the specification's total.
-/
import proofs.«109200_j10067403341969_1_alg».proof.Proof.Gen.ReferenceIdeal.Read
import proofs.«109200_j10067403341969_1_alg».proof.Proof.Spec
import Idealize.ShloMosaic.Lib.Pipeline.Value
import Idealize.ShloMosaic.Lib.ValueIdx

noncomputable section

open Idealize.ShloMosaic Idealize.ShloMosaic.ValueIdx

namespace Cert.ReferenceIdeal.RefTotal

open Cert.ReferenceIdeal Cert.ReferenceIdeal.Read Cert.BoxLoss

variable (P T : Arr)

/-- An index of a [4194304, 5] array with row `n` and column `c`. -/
theorem anchorIdx (i : (⟨2, ![4194304, 5]⟩ : Shape).Idx) (n : Fin 4194304) (c : Fin 5) (h0 : (i 0).val = n.val)
    (h1 : (i 1).val = c.val) : i = ix2 n c := Shape.idx_ext₂ h0 h1

/-- The reference's quotient, in its own spelling of the literal 1.0, is the logistic function. -/
theorem quotient_eq_logistic (x : E) :
    FloatOps.hostDivf (FloatOps.ofBits (F := Ideal) .f32 0x3F800000#32)
      (FloatOps.addf (FloatOps.ofBits (F := Ideal) .f32 0x3F800000#32) (FloatOps.hostUnary .exp (FloatOps.hostNegf x)))
      = FloatOps.logistic x := (logistic_eq_quotient x).symm

/-- The IoU-loss summand at anchor `n`. -/
theorem iou_term (n : Fin 4194304) : val_main_v74 (F := Ideal) P T (ix1 n) = iouAt P T n := by
  simp only [val_main_v74_apply, val_main_v73_apply, val_main_cst_3_apply, val_main_v72_apply, val_main_call0_v0_apply,
    val_main_cst_2_apply, val_main_v71_apply, val_main_v70_apply, val_main_v69_apply, val_main_v68_apply, val_main_v67_apply,
    val_main_cst_1_apply, val_main_v66_apply, val_main_v65_apply, val_main_v64_apply, val_main_v63_apply, val_main_v62_apply,
    val_main_v61_apply, val_main_v60_apply, val_main_v59_apply, val_main_v58_apply, val_main_v57_apply, val_main_v56_apply,
    val_main_v55_apply, val_main_v54_apply, val_main_v53_apply, val_main_v52_apply, val_main_v51_apply, val_main_v50_apply,
    val_main_v49_apply, val_main_v48_apply, val_main_v47_apply, val_main_v46_apply, val_main_v45_apply, val_main_v44_apply,
    val_main_v43_apply, val_main_v42_apply, val_main_v41_apply, val_main_v40_apply, val_main_v39_apply, val_main_v38_apply,
    val_main_v37_apply, val_main_v36_apply, val_main_v35_apply, val_main_v34_apply, val_main_v33_apply, val_main_v32_apply,
    val_main_v31_apply, val_main_v30_apply, val_main_v29_apply, val_main_v28_apply, val_main_v27_apply, val_main_v26_apply,
    val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_cst_0_apply, val_main_v4_apply, val_main_v3_apply,
    val_main_cst_apply, val_main_v2_apply, val_main_v1_apply, val_main_v0_apply]
  -- each column is sliced out more than once; the index maps of the repeats are the same functions
  rw [anchorIdx (idx_main_v0 (idx_main_v8 (idx_main_v9 (ix1 n)))) n 3 (Nat.div_one _) rfl,
    anchorIdx (idx_main_v0 (idx_main_v10 (idx_main_v11 (ix1 n)))) n 1 (Nat.div_one _) rfl,
    anchorIdx (idx_main_v0 (idx_main_v14 (idx_main_v15 (ix1 n)))) n 4 (Nat.div_one _) rfl,
    anchorIdx (idx_main_v0 (idx_main_v16 (idx_main_v17 (ix1 n)))) n 2 (Nat.div_one _) rfl,
    anchorIdx (idx_main_v7 (idx_main_v21 (idx_main_v22 (ix1 n)))) n 3 (Nat.div_one _) rfl,
    anchorIdx (idx_main_v7 (idx_main_v23 (idx_main_v24 (ix1 n)))) n 1 (Nat.div_one _) rfl,
    anchorIdx (idx_main_v7 (idx_main_v26 (idx_main_v27 (ix1 n)))) n 4 (Nat.div_one _) rfl,
    anchorIdx (idx_main_v7 (idx_main_v28 (idx_main_v29 (ix1 n)))) n 2 (Nat.div_one _) rfl]
  simp only [quotient_eq_logistic]
  rfl

/-- The cross-entropy summand at anchor `n`. -/
theorem bce_term (n : Fin 4194304) : val_main_v89 (F := Ideal) P T (ix1 n) = bceAt P T n := by
  simp only [val_main_v89_apply, val_main_v88_apply, val_main_v87_apply, val_main_v86_apply, val_main_v85_apply, val_main_v84_apply,
    val_main_v83_apply, val_main_v82_apply, val_main_v81_apply, val_main_cst_6_apply, val_main_v80_apply, val_main_v79_apply,
    val_main_v78_apply, val_main_v77_apply]
  rw [anchorIdx (idx_main_v77 (idx_main_v78 (ix1 n))) n 0 (Nat.div_one _) rfl,
    anchorIdx (idx_main_v79 (idx_main_v80 (ix1 n))) n 0 (Nat.div_one _) rfl]
  simp only [neg_eq_zero_sub]
  rfl

/-- The reference's result is the specification's total. -/
theorem result_eq : val_main_v93 (F := Ideal) P T ix0 = total P T := by
  simp only [val_main_v93_apply, val_main_v92_apply, val_main_cst_9_apply, val_main_v91_apply, val_main_cst_8_apply,
    val_main_v90_apply, val_main_cst_7_apply, val_main_v76_apply, val_main_cst_5_apply, val_main_v75_apply, val_main_cst_4_apply,
    sum_idx1, iou_term, bce_term]
  rfl

end Cert.ReferenceIdeal.RefTotal

end
-- ==== Proof.Lanes.lean ====
/-
  The kernel body's arithmetic, lane by lane.

  At one grid point the body holds a [5, 32768] block of predictions and one of targets, anchors along the lanes. Row 0
  of each feeds the cross-entropy term, rows 1 … 4 the IoU term; each of the two totals the body adds to its running sum
  is the sum over the 32,768 lanes of that anchor's term. Here each stored value is read at its one index as such a sum.
-/
import proofs.«109200_j10067403341969_1_alg».proof.Proof.Gen.KernelIdeal.Skeleton
import proofs.«109200_j10067403341969_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Lanes

open Cert.KernelIdeal Cert.KernelIdeal.Gen Cert.BoxLoss

/-! ## Pointwise operations the index passes through -/

theorem logistic_apply {s : Shape} (a : FVec Ideal s .f32) (i : s.Idx) : logistic a i = FloatOps.logistic (a i) := rfl
theorem absf_apply {s : Shape} (a : FVec Ideal s .f32) (i : s.Idx) : absf a i = FloatOps.absf (a i) := rfl
theorem exp_apply {s : Shape} (a : FVec Ideal s .f32) (i : s.Idx) : exp a i = FloatOps.exp (a i) := rfl
theorem log1p_apply {s : Shape} (a : FVec Ideal s .f32) (i : s.Idx) : log1p a i = FloatOps.log1p (a i) := rfl

/-! ## Row `r` of a four-row block, lane `k` -/

theorem row0 {α : Type} (v : S4x32768.Idx → α) (h : S4x32768.Slices ![0, 0] S1x32768) (k : Fin 32768) :
    extractStridedSlice S1x32768 ![0, 0] v h (ix2 0 k) = v (ix2 0 k) :=
  extractStridedSlice_apply _ v h _ _ fun a => match a with
    | ⟨0, _⟩ => by show (0 : ℕ) = 0 + 0; omega
    | ⟨1, _⟩ => by show k.val = 0 + k.val; omega
theorem row1 {α : Type} (v : S4x32768.Idx → α) (h : S4x32768.Slices ![1, 0] S1x32768) (k : Fin 32768) :
    extractStridedSlice S1x32768 ![1, 0] v h (ix2 0 k) = v (ix2 1 k) :=
  extractStridedSlice_apply _ v h _ _ fun a => match a with
    | ⟨0, _⟩ => by show (1 : ℕ) = 1 + 0; omega
    | ⟨1, _⟩ => by show k.val = 0 + k.val; omega
theorem row2 {α : Type} (v : S4x32768.Idx → α) (h : S4x32768.Slices ![2, 0] S1x32768) (k : Fin 32768) :
    extractStridedSlice S1x32768 ![2, 0] v h (ix2 0 k) = v (ix2 2 k) :=
  extractStridedSlice_apply _ v h _ _ fun a => match a with
    | ⟨0, _⟩ => by show (2 : ℕ) = 2 + 0; omega
    | ⟨1, _⟩ => by show k.val = 0 + k.val; omega
theorem row3 {α : Type} (v : S4x32768.Idx → α) (h : S4x32768.Slices ![3, 0] S1x32768) (k : Fin 32768) :
    extractStridedSlice S1x32768 ![3, 0] v h (ix2 0 k) = v (ix2 3 k) :=
  extractStridedSlice_apply _ v h _ _ fun a => match a with
    | ⟨0, _⟩ => by show (3 : ℕ) = 3 + 0; omega
    | ⟨1, _⟩ => by show k.val = 0 + k.val; omega

/-! ## The IoU of lane `k` -/

theorem pay6_apply (v7 v10 : Vec Ideal S4x32768 .f32) (k : Fin 32768) :
    k0_pay6 (F := Ideal) v7 v10 (ix2 0 k)
      = iou (v7 (ix2 0 k)) (v7 (ix2 1 k)) (v7 (ix2 2 k)) (v7 (ix2 3 k))
          (v10 (ix2 0 k)) (v10 (ix2 1 k)) (v10 (ix2 2 k)) (v10 (ix2 3 k)) := by
  unfold k0_pay6
  simp only [shapeCast_self, select_apply, cmpf_apply, divf_apply, subf_apply, addf_apply, mulf_apply, maximumf_apply,
    minimumf_apply, absf_apply, logistic_apply, broadcast_apply, row0, row1, row2, row3]
  rfl

/-! ## The two stored totals -/

/-- The one index of a [1, 1] vector made from a [1] vector. -/
theorem cast11 {α : Type} (v : S1.Idx → α) (h : S1.ShapeCasts S1x1) : shapeCast S1x1 v h (ix2 0 0) = v (ix1 0) :=
  shapeCast_apply v h _ _ rfl

/-- A lane reduction of a one-row block is the sum over its 32,768 lanes (the accumulator word is the zero the sum
    starts from). -/
theorem laneSum (src : FVec Ideal S1x32768 .f32) (h : S1x32768.Reduces [1] S1) (hφ : FKind.Formats .f32)
    (hacc : (0x00000000#32 : BitVec 32) = 0x00000000#32) :
    multiReduction .add [1] S1 src 0x00000000#32 h hφ hacc (ix1 0) = ∑ k : Fin 32768, src (ix2 0 k) :=
  (Ideal.multiReduction_add_single src 0x00000000#32 h hφ hacc (ix1 0)).trans
    (Finset.sum_congr rfl fun k _ => congrArg src (Shape.idx_ext₂ rfl rfl))

/-- What the body stores at [0, 0]: the loaded running total plus the lanes' IoU-loss terms. -/
theorem pay1_apply (v45 : Vec Ideal S1x32768 .f32) (v62 : Vec Ideal S1x1 .f32) :
    k0_pay1 (F := Ideal) v45 v62 (ix2 0 0) = v62 (ix2 0 0) + ∑ k : Fin 32768, FloatOps.subf oneLit (v45 (ix2 0 k)) := by
  unfold k0_pay1
  simp only [shapeCast_self, addf_apply, cast11]
  exact congrArg (v62 (ix2 0 0) + ·) ((laneSum _ _ _ _).trans rfl)

/-- What the body stores at [0, 1]: the loaded running total plus the lanes' cross-entropy terms. -/
theorem pay2_apply (v4 v6 : Vec Ideal S1x32768 .f32) (v66 : Vec Ideal S1x1 .f32) :
    k0_pay2 (F := Ideal) v4 v6 v66 (ix2 0 0) = v66 (ix2 0 0) + ∑ k : Fin 32768, bceLoss (v4 (ix2 0 k)) (v6 (ix2 0 k)) := by
  unfold k0_pay2
  simp only [shapeCast_self, addf_apply, cast11]
  exact congrArg (v66 (ix2 0 0) + ·) ((laneSum _ _ _ _).trans rfl)

end Cert.KernelIdeal.Lanes

end
-- ==== Proof.CaseValues.lean ====
/-
  What one grid point leaves in the [1, 2] accumulator.

  The body keeps two running totals side by side: entry [0, 0] the IoU-loss total, entry [0, 1] the cross-entropy total.
  At the first grid point it fills both with zero and then adds the point's two lane sums; at every later point it adds
  the point's lane sums to what the point before left. Each entry is written by its own one-element store, so reading the
  buffer back at an entry finds exactly that store's value.
-/
import proofs.«109200_j10067403341969_1_alg».proof.Proof.Gen.KernelIdeal.Frame
import proofs.«109200_j10067403341969_1_alg».proof.Proof.Lanes
import Idealize.ShloMosaic.Lib.Pipeline.Value
import Idealize.ShloMosaic.Lib.Tactic

noncomputable section

open Idealize.ShloMosaic Idealize.ShloMosaic.TcCoe Idealize.SL.Sem Idealize.ShloMosaic.ValueIdx

namespace Cert.KernelIdeal.Cases

open Cert.KernelIdeal Cert.KernelIdeal.Gen Cert.KernelIdeal.Lanes Cert.BoxLoss

/-! ## The lane sums of one pair of blocks -/

/-- The IoU-loss terms of a block's 32,768 anchors, summed: rows 1 … 4 of the prediction block and of the target block. -/
def iouBlock (x y : Vec Ideal S5x32768 .f32) : E :=
  ∑ k : Fin 32768, iouLoss (x (ix2 1 k)) (x (ix2 2 k)) (x (ix2 3 k)) (x (ix2 4 k))
    (y (ix2 1 k)) (y (ix2 2 k)) (y (ix2 3 k)) (y (ix2 4 k))

/-- The cross-entropy terms of a block's anchors, summed: row 0 of each block. -/
def bceBlock (x y : Vec Ideal S5x32768 .f32) : E := ∑ k : Fin 32768, bceLoss (x (ix2 0 k)) (y (ix2 0 k))

/-! ## Reading a block through the body's load rectangles -/

section Loads

/-- Lane `k` of the one-row load at row 0 is entry (0, k) of the block. -/
theorem idx_row0 (inb) (k : Fin 32768) :
    (Rect.unit (s := S5x32768) ![0, 0] ![1, 32768] inb).idx (ix2 0 k) = ix2 0 k :=
  Shape.idx_ext₂ rfl (by show 0 + 1 * k.val = k.val; omega)

/-- Row `r`, lane `k` of the four-row load at row 1 is entry (r + 1, k) of the block. -/
theorem idx_rows (inb) (r : Fin 4) (k : Fin 32768) :
    (Rect.unit (s := S5x32768) ![1, 0] ![4, 32768] inb).idx (ix2 r k) = ix2 r.succ k :=
  Shape.idx_ext₂ (by show 1 + 1 * r.val = r.val + 1; omega) (by show 0 + 1 * k.val = k.val; omega)

/-- The one-element loads of the accumulator read its entries [0, 0] and [0, 1]. -/
theorem idx_acc0 (inb) : (Rect.unit (s := S1x2) ![0, 0] ![1, 1] inb).idx (ix2 0 0) = ix2 0 0 := Shape.idx_ext₂ rfl rfl
theorem idx_acc1 (inb) : (Rect.unit (s := S1x2) ![0, 1] ![1, 1] inb).idx (ix2 0 0) = ix2 0 1 := Shape.idx_ext₂ rfl rfl

end Loads

/-! ## Reading the accumulator after one-element stores -/

section Stores
variable {Val : EltTy → Type} [∀ e, Nonempty (Val e)]

/-- Entry [0, 0] is not under a store at [0, 1]. -/
theorem not_mem_store1 (inb) : (ix2 0 0 : S1x2.Idx) ∉ (Rect.unit (s := S1x2) ![0, 1] ![1, 1] inb).set := by
  rw [Rect.mem_set_unit]
  intro h
  have := (h 1).1
  exact absurd this (by decide)

/-- Entry [0, 1] is not under a store at [0, 0]. -/
theorem not_mem_store0 (inb) : (ix2 0 1 : S1x2.Idx) ∉ (Rect.unit (s := S1x2) ![0, 0] ![1, 1] inb).set := by
  rw [Rect.mem_set_unit]
  intro h
  have := (h 1).2
  exact absurd this (by decide)

/-- After a last store at [0, 0], entry [0, 0] holds its value. -/
theorem canon_store0 (inb) (w : (Rect.unit (s := S1x2) ![0, 0] ![1, 1] inb).shape.Idx → Val .f32)
    (L : List (View.Piece Val S1x2 .f32)) :
    View.canon (⟨Rect.unit (s := S1x2) ![0, 0] ![1, 1] inb, w⟩ :: L) (ix2 0 0) = w (ix2 0 0) := by
  have h := View.canon_cons_emb (Rect.unit (s := S1x2) ![0, 0] ![1, 1] inb) w L (ix2 0 0)
  rwa [show (Rect.unit (s := S1x2) ![0, 0] ![1, 1] inb).emb (ix2 0 0) = ix2 0 0 from Shape.idx_ext₂ rfl rfl] at h

/-- After a last store at [0, 1], entry [0, 1] holds its value. -/
theorem canon_store1 (inb) (w : (Rect.unit (s := S1x2) ![0, 1] ![1, 1] inb).shape.Idx → Val .f32)
    (L : List (View.Piece Val S1x2 .f32)) :
    View.canon (⟨Rect.unit (s := S1x2) ![0, 1] ![1, 1] inb, w⟩ :: L) (ix2 0 1) = w (ix2 0 0) := by
  have h := View.canon_cons_emb (Rect.unit (s := S1x2) ![0, 1] ![1, 1] inb) w L (ix2 0 0)
  rwa [show (Rect.unit (s := S1x2) ![0, 1] ![1, 1] inb).emb (ix2 0 0) = ix2 0 1 from Shape.idx_ext₂ rfl rfl] at h

end Stores

theorem zero_offsets : (![0, 0] : Fin 2 → Nat) = fun _ => 0 := funext fun a => by fin_cases a <;> rfl

/-! ## A later grid point: the totals grow by the point's lane sums -/

theorem later_iou (c : Dev nD) (i : grid0.Coords) (a1 : Memref sig .tc .vmem S5x32768 .f32) (h1 : a1.IsWhole)
    (a2 : Memref sig .tc .vmem S5x32768 .f32) (h2 : a2.IsWhole) (a3 : Memref sig .tc .vmem S1x2 .f32) (h3 : a3.IsWhole)
    (hc : ¬cond0_0 i) (x y : Vec Ideal S5x32768 .f32) (acc : Vec Ideal S1x2 .f32) :
    out0_B_2 (F := Ideal) c i a1 h1 a2 h2 a3 h3 hc x y acc (ix2 0 0) = acc (ix2 0 0) + iouBlock x y := by
  unfold out0_B_2
  rw [View.read_writes_eq_canon _ _ _ (cover0_B_2 c i a1 h1 a2 h2 a3 h3 hc x y acc)]
  unfold kernelRun0_B
  dsimp only
  sl_unfold_words
  refine (View.canon_cons_of_not_mem _ _ (not_mem_store1 inb_S1x2_S1x1_0_1)).trans ?_
  refine (canon_store0 _ _ _).trans ?_
  refine (pay1_apply _ _).trans ?_
  simp only [pay6_apply, View.readAt_eq_ld, h1.read_unread, h2.read_unread, h3.read_unread, View.ld, idx_rows, idx_acc0]
  rfl

theorem later_bce (c : Dev nD) (i : grid0.Coords) (a1 : Memref sig .tc .vmem S5x32768 .f32) (h1 : a1.IsWhole)
    (a2 : Memref sig .tc .vmem S5x32768 .f32) (h2 : a2.IsWhole) (a3 : Memref sig .tc .vmem S1x2 .f32) (h3 : a3.IsWhole)
    (hc : ¬cond0_0 i) (x y : Vec Ideal S5x32768 .f32) (acc : Vec Ideal S1x2 .f32) :
    out0_B_2 (F := Ideal) c i a1 h1 a2 h2 a3 h3 hc x y acc (ix2 0 1) = acc (ix2 0 1) + bceBlock x y := by
  unfold out0_B_2
  rw [View.read_writes_eq_canon _ _ _ (cover0_B_2 c i a1 h1 a2 h2 a3 h3 hc x y acc)]
  unfold kernelRun0_B
  dsimp only
  sl_unfold_words
  refine (canon_store1 _ _ _).trans ?_
  refine (pay2_apply _ _ _).trans ?_
  simp only [k0_pay4, k0_pay5, shapeCast_self, View.readAt_eq_ld, h1.read_unread, h2.read_unread, h3.read_unread, View.ld,
    idx_row0, idx_acc1]
  rfl

/-! ## The first grid point: the totals start from the literal zero -/

/-- The zero fill: one store of the literal zero over the whole accumulator. -/
abbrev zeroFill (inbW : ∀ a, (![0, 0] : Fin 2 → Nat) a + S1x2.size a ≤ S1x2.size a) : View.Piece (Elt Ideal) S1x2 .f32 :=
  ⟨Rect.unit (s := S1x2) ![0, 0] S1x2.size inbW, k0_pay3 (F := Ideal)⟩

/-- It covers every entry. -/
theorem zeroFill_covers (inbW) (y : S1x2.Idx) : y ∈ (zeroFill inbW).1.set :=
  View.mem_set_unit_zero zero_offsets inbW y

/-- Alone, it leaves the literal zero at every entry. -/
theorem canon_zeroFill (inbW) (y : S1x2.Idx) : View.canon [zeroFill inbW] y = zeroLit := by
  have h : View.canon [zeroFill inbW] = k0_pay3 (F := Ideal) := View.canon_unit_zero zero_offsets inbW _
  rw [h]
  rfl

/-- After the zero fill alone, the load of entry [0, 0] reads the literal zero. -/
theorem read_fill0 {sg : RefSig} {κ : Kind} {sp : Space} (v : View sg κ sp S1x2 .f32) (inbW) (inb0) :
    v.readCov [zeroFill inbW] (Rect.unit (s := S1x2) ![0, 0] ![1, 1] inb0).toLoadRect (ix2 0 0) = zeroLit := by
  have h := View.readCov_eq_canon_ld v [zeroFill inbW] (Rect.unit (s := S1x2) ![0, 0] ![1, 1] inb0)
    (fun y => ⟨zeroFill inbW, List.mem_singleton_self _, zeroFill_covers inbW y⟩)
  exact (congrFun h (ix2 0 0)).trans (canon_zeroFill inbW _)

/-- After the zero fill and the store of entry [0, 0], the load of entry [0, 1] still reads the literal zero. -/
theorem read_fill1 {sg : RefSig} {κ : Kind} {sp : Space} (v : View sg κ sp S1x2 .f32) (inbW) (inb0) (inb1)
    (w : (Rect.unit (s := S1x2) ![0, 0] ![1, 1] inb0).shape.Idx → Elt Ideal .f32) :
    v.readCov [(⟨Rect.unit (s := S1x2) ![0, 0] ![1, 1] inb0, w⟩ : View.Piece (Elt Ideal) S1x2 .f32), zeroFill inbW]
      (Rect.unit (s := S1x2) ![0, 1] ![1, 1] inb1).toLoadRect (ix2 0 0) = zeroLit := by
  have h := View.readCov_eq_canon_ld v
    [(⟨Rect.unit (s := S1x2) ![0, 0] ![1, 1] inb0, w⟩ : View.Piece (Elt Ideal) S1x2 .f32), zeroFill inbW]
    (Rect.unit (s := S1x2) ![0, 1] ![1, 1] inb1)
    (fun y => ⟨zeroFill inbW, List.mem_cons_of_mem _ (List.mem_singleton_self _), zeroFill_covers inbW y⟩)
  refine (congrFun h (ix2 0 0)).trans ?_
  show View.canon _ ((Rect.unit (s := S1x2) ![0, 1] ![1, 1] inb1).idx (ix2 0 0)) = _
  rw [idx_acc1]
  exact (View.canon_cons_of_not_mem _ _ (not_mem_store0 inb0)).trans (canon_zeroFill inbW _)

theorem first_iou (c : Dev nD) (i : grid0.Coords) (a1 : Memref sig .tc .vmem S5x32768 .f32) (h1 : a1.IsWhole)
    (a2 : Memref sig .tc .vmem S5x32768 .f32) (h2 : a2.IsWhole) (a3 : Memref sig .tc .vmem S1x2 .f32) (h3 : a3.IsWhole)
    (hc : cond0_0 i) (x y : Vec Ideal S5x32768 .f32) :
    out0_A_2 (F := Ideal) c i a1 h1 a2 h2 a3 h3 hc x y (ix2 0 0) = zeroLit + iouBlock x y := by
  unfold out0_A_2
  rw [View.read_writes_eq_canon _ _ _ (cover0_A_2 c i a1 h1 a2 h2 a3 h3 hc x y)]
  unfold kernelRun0_A
  dsimp only
  sl_unfold_words
  refine (View.canon_cons_of_not_mem _ _ (not_mem_store1 inb_S1x2_S1x1_0_1)).trans ?_
  refine (canon_store0 _ _ _).trans ?_
  refine (pay1_apply _ _).trans ?_
  refine congrArg₂ (· + ·) (read_fill0 a3.view inb_S1x2_S1x2_0_0 inb_S1x2_S1x1_0_0) ?_
  simp only [pay6_apply, View.readAt_eq_ld, h1.read_unread, h2.read_unread, View.ld, idx_rows]
  rfl

theorem first_bce (c : Dev nD) (i : grid0.Coords) (a1 : Memref sig .tc .vmem S5x32768 .f32) (h1 : a1.IsWhole)
    (a2 : Memref sig .tc .vmem S5x32768 .f32) (h2 : a2.IsWhole) (a3 : Memref sig .tc .vmem S1x2 .f32) (h3 : a3.IsWhole)
    (hc : cond0_0 i) (x y : Vec Ideal S5x32768 .f32) :
    out0_A_2 (F := Ideal) c i a1 h1 a2 h2 a3 h3 hc x y (ix2 0 1) = zeroLit + bceBlock x y := by
  unfold out0_A_2
  rw [View.read_writes_eq_canon _ _ _ (cover0_A_2 c i a1 h1 a2 h2 a3 h3 hc x y)]
  unfold kernelRun0_A
  dsimp only
  sl_unfold_words
  refine (canon_store1 _ _ _).trans ?_
  refine (pay2_apply _ _ _).trans ?_
  refine congrArg₂ (· + ·) (read_fill1 a3.view inb_S1x2_S1x2_0_0 inb_S1x2_S1x1_0_0 inb_S1x2_S1x1_0_1 _) ?_
  simp only [k0_pay4, k0_pay5, shapeCast_self, View.readAt_eq_ld, h1.read_unread, h2.read_unread, View.ld, idx_row0]
  rfl

end Cert.KernelIdeal.Cases

end
-- ==== Proof.Blocks.lean ====
/-
  The blocks the kernel sees are rows of the argument arrays.

  Before the kernel runs, each [4194304, 5] argument is transposed to [5, 4194304]; grid point `t` is handed the
  [5, 32768] block of columns 32768·t … 32768·t + 32767. So entry (r, l) of the block at point `t` is entry
  (32768·t + l, r) of the argument, and the lane sums of the block are the specification's per-anchor terms over
  the anchors 32768·t … 32768·t + 32767.
-/
import proofs.«109200_j10067403341969_1_alg».proof.Proof.Gen.KernelIdeal.Frame
import proofs.«109200_j10067403341969_1_alg».proof.Proof.CaseValues
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Cases Cert.BoxLoss

variable (m : (ℓ : Loc nD τ sig) → Buf (Elt Ideal) ℓ)

/-- The two argument arrays on core `c`. -/
abbrev preds (c : Dev nD) : Arr := m ((c : Thread nD τ).loc main_arg0)
abbrev targets (c : Dev nD) : Arr := m ((c : Thread nD τ).loc main_arg1)

/-- The region finds the transposed arguments in its two input arrays. -/
theorem entry_preds (c : Dev nD) :
    (V m c main_v0 : S5x4194304.Idx → Elt Ideal .f32)
      = transpose S5x4194304 [1, 0] (preds m c) transposes_S4194304x5_S5x4194304_1_0 := by
  show StableHlo.after hostOps0 (fun b => m (c, b)) (Proc.devRef .tc main_v0) = _
  after_results

theorem entry_targets (c : Dev nD) :
    (V m c main_v1 : S5x4194304.Idx → Elt Ideal .f32)
      = transpose S5x4194304 [1, 0] (targets m c) transposes_S4194304x5_S5x4194304_1_0 := by
  show StableHlo.after hostOps0 (fun b => m (c, b)) (Proc.devRef .tc main_v1) = _
  after_results

/-- Both input windows sit at block (0, t) at grid point `t`. -/
theorem block_index : ∀ t : Fin cfg0.N, win0_0.index t 0 = 0 ∧ win0_0.index t 1 = t.val
    ∧ win0_1.index t 0 = 0 ∧ win0_1.index t 1 = t.val :=
  (by decide +kernel : ∀ t : Fin grid0.N, win0_0.index t 0 = 0 ∧ win0_0.index t 1 = t.val
    ∧ win0_1.index t 0 = 0 ∧ win0_1.index t 1 = t.val)

/-- Entry (r, l) of the prediction block at point `t` is the prediction of anchor 32768·t + l in column `r`. -/
theorem pred_block (c : Dev nD) (t : Fin cfg0.N) (r : Fin 5) (l : Fin 32768) (h : t.val * 32768 + l.val < 4194304) :
    (iblk m c 0 t : Vec Ideal S5x32768 .f32) (ix2 r l) = preds m c (ix2 ⟨t.val * 32768 + l.val, h⟩ r) := by
  unfold iblk
  rw [View.read_apply]
  show V m c main_v0 _ = _
  rw [entry_preds]
  refine transpose_apply [1, 0] _ _ _ _ fun b => ?_
  match b with
  | ⟨0, _⟩ => show r.val = win0_0.index t 0 * 5 + 1 * r.val; rw [(block_index t).1]; omega
  | ⟨1, _⟩ => show t.val * 32768 + l.val = win0_0.index t 1 * 32768 + 1 * l.val; rw [(block_index t).2.1]; omega

/-- The same for the target block. -/
theorem target_block (c : Dev nD) (t : Fin cfg0.N) (r : Fin 5) (l : Fin 32768) (h : t.val * 32768 + l.val < 4194304) :
    (iblk m c 1 t : Vec Ideal S5x32768 .f32) (ix2 r l) = targets m c (ix2 ⟨t.val * 32768 + l.val, h⟩ r) := by
  unfold iblk
  rw [View.read_apply]
  show V m c main_v1 _ = _
  rw [entry_targets]
  refine transpose_apply [1, 0] _ _ _ _ fun b => ?_
  match b with
  | ⟨0, _⟩ => show r.val = win0_1.index t 0 * 5 + 1 * r.val; rw [(block_index t).2.2.1]; omega
  | ⟨1, _⟩ => show t.val * 32768 + l.val = win0_1.index t 1 * 32768 + 1 * l.val; rw [(block_index t).2.2.2]; omega

end Cert.KernelIdeal.Blocks

end
-- ==== Proof.Totals.lean ====
/-
  The kernel's result: the running totals over the grid, the one write-back, and the host lines after the region.

  After grid point `n` the accumulator holds, in its two entries, the literal zero plus the IoU-loss terms (entry [0, 0])
  and the cross-entropy terms (entry [0, 1]) of the first 32768·(n + 1) anchors: the first point starts both from the
  zero fill, each later point adds its block's lane sums to what the point before left. The accumulator is written back
  once, after the last point, into the [1, 2] result array, which it fills whole. The host lines after the region take
  the two entries apart, divide each by the anchor count and combine them.
-/
import proofs.«109200_j10067403341969_1_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Totals

open Cert.KernelIdeal Cert.KernelIdeal.Gen Cert.KernelIdeal.Cases Cert.KernelIdeal.Blocks Cert.BoxLoss

variable (m : (ℓ : Loc nD τ sig) → Buf (Elt Ideal) ℓ) (ρ : Dev nD → PrngReg)

/-! ## A block's lane sums are the terms of its 32,768 anchors -/

theorem iouBlock_eq (c : Dev nD) (t : Fin cfg0.N) :
    iouBlock (iblk m c 0 t) (iblk m c 1 t)
      = ∑ l : Fin 32768, ext (iouAt (preds m c) (targets m c)) (t.val * 32768 + l.val) := by
  have hN : t.val < 128 := lt_of_lt_of_eq t.isLt N_0
  unfold iouBlock
  refine Finset.sum_congr rfl fun l _ => ?_
  have hl : t.val * 32768 + l.val < 4194304 := by have := l.isLt; omega
  rw [ext_of_lt _ hl]
  unfold iouAt
  rw [pred_block m c t 1 l hl, pred_block m c t 2 l hl, pred_block m c t 3 l hl, pred_block m c t 4 l hl,
    target_block m c t 1 l hl, target_block m c t 2 l hl, target_block m c t 3 l hl, target_block m c t 4 l hl]

theorem bceBlock_eq (c : Dev nD) (t : Fin cfg0.N) :
    bceBlock (iblk m c 0 t) (iblk m c 1 t)
      = ∑ l : Fin 32768, ext (bceAt (preds m c) (targets m c)) (t.val * 32768 + l.val) := by
  have hN : t.val < 128 := lt_of_lt_of_eq t.isLt N_0
  unfold bceBlock
  refine Finset.sum_congr rfl fun l _ => ?_
  have hl : t.val * 32768 + l.val < 4194304 := by have := l.isLt; omega
  rw [ext_of_lt _ hl]
  unfold bceAt
  rw [pred_block m c t 0 l hl, target_block m c t 0 l hl]

/-! ## The running totals -/

/-- After point `n`: the zero the first point starts from, plus the terms of the first 32768·(n + 1) anchors. -/
theorem running (c : Dev nD) : ∀ (n : ℕ) (h : n < cfg0.N),
    outsAt0 m c n h (ix2 0 0)
        = zeroLit + ∑ k ∈ Finset.range ((n + 1) * 32768), ext (iouAt (preds m c) (targets m c)) k
      ∧ outsAt0 m c n h (ix2 0 1)
        = zeroLit + ∑ k ∈ Finset.range ((n + 1) * 32768), ext (bceAt (preds m c) (targets m c)) k
  | 0, h => by
    have e := outsAt0_A m c ⟨0, h⟩ rfl
    constructor
    · rw [sum_range_succ_mul, Nat.zero_mul, Finset.range_zero, Finset.sum_empty, zero_add]
      refine (congrFun e (ix2 0 0)).trans ?_
      refine (first_iou c (grid0.coords ⟨0, h⟩) (ms0_0 ⟨0, h⟩) (hs0_0 ⟨0, h⟩) (ms0_1 ⟨0, h⟩) (hs0_1 ⟨0, h⟩) (ms0_2 ⟨0, h⟩)
        (hs0_2 ⟨0, h⟩) ((hcond0_0 ⟨0, h⟩).mpr rfl) (iblk m c 0 ⟨0, h⟩) (iblk m c 1 ⟨0, h⟩)).trans ?_
      rw [iouBlock_eq m c ⟨0, h⟩]
      dsimp only
    · rw [sum_range_succ_mul, Nat.zero_mul, Finset.range_zero, Finset.sum_empty, zero_add]
      refine (congrFun e (ix2 0 1)).trans ?_
      refine (first_bce c (grid0.coords ⟨0, h⟩) (ms0_0 ⟨0, h⟩) (hs0_0 ⟨0, h⟩) (ms0_1 ⟨0, h⟩) (hs0_1 ⟨0, h⟩) (ms0_2 ⟨0, h⟩)
        (hs0_2 ⟨0, h⟩) ((hcond0_0 ⟨0, h⟩).mpr rfl) (iblk m c 0 ⟨0, h⟩) (iblk m c 1 ⟨0, h⟩)).trans ?_
      rw [bceBlock_eq m c ⟨0, h⟩]
      dsimp only
  | n + 1, h => by
    have hN : cfg0.N = 128 := N_0
    have hB : ¬(⟨n + 1, h⟩ : Fin cfg0.N).val % 128 = 0 := by dsimp only; omega
    have e := outsAt0_B m c ⟨n + 1, h⟩ hB
    obtain ⟨ihA, ihB⟩ := running c n (Nat.lt_of_succ_lt h)
    constructor
    · refine (congrFun e (ix2 0 0)).trans ?_
      refine (later_iou c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (fun hh => hB ((hcond0_0 ⟨n + 1, h⟩).mp hh))
        (iblk m c 0 ⟨n + 1, h⟩) (iblk m c 1 ⟨n + 1, h⟩) (outsAt0 m c n (Nat.lt_of_succ_lt h))).trans ?_
      rw [iouBlock_eq m c ⟨n + 1, h⟩, ihA, sum_range_succ_mul _ (n + 1) 32768, add_assoc]
    · refine (congrFun e (ix2 0 1)).trans ?_
      refine (later_bce c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (fun hh => hB ((hcond0_0 ⟨n + 1, h⟩).mp hh))
        (iblk m c 0 ⟨n + 1, h⟩) (iblk m c 1 ⟨n + 1, h⟩) (outsAt0 m c n (Nat.lt_of_succ_lt h))).trans ?_
      rw [bceBlock_eq m c ⟨n + 1, h⟩, ihB, sum_range_succ_mul _ (n + 1) 32768, add_assoc]

/-! ## The one write-back -/

theorem last_lt : 127 < cfg0.N := by rw [show cfg0.N = 128 from N_0]; decide

/-- The last grid point. -/
abbrev lastPoint : Fin cfg0.N := ⟨127, last_lt⟩

/-- The accumulator after the last point. -/
abbrev lastAcc (c : Dev nD) : Buf (Elt Ideal) ((c : Thread nD τ).loc main_v2) := outsAt0 m c lastPoint.val lastPoint.isLt

/-- Its two entries are the two whole totals. -/
theorem lastAcc_iou (c : Dev nD) :
    lastAcc m c (ix2 0 0) = zeroLit + ∑ n : Fin 4194304, iouAt (preds m c) (targets m c) n := by
  rw [sum_univ_eq_sum_range_ext]
  exact (running m c lastPoint.val lastPoint.isLt).1

theorem lastAcc_bce (c : Dev nD) :
    lastAcc m c (ix2 0 1) = zeroLit + ∑ n : Fin 4194304, bceAt (preds m c) (targets m c) n := by
  rw [sum_univ_eq_sum_range_ext]
  exact (running m c lastPoint.val lastPoint.isLt).2

/-- The output window sits at block (0, 0) at every point. -/
theorem out_index : ∀ t : Fin cfg0.N, win0_2.index t 0 = 0 ∧ win0_2.index t 1 = 0 :=
  (by decide +kernel : ∀ t : Fin grid0.N, win0_2.index t 0 = 0 ∧ win0_2.index t 1 = 0)

/-- What a write-back at any point `t` would write is the accumulator as point `t` leaves it: block (0, 0) of the
    [1, 2] array is the whole array. -/
theorem flushed_at (c : Dev nD) (t : Fin cfg0.N) :
    (dats m 0 c).flushed 2 t = ((cfg0.win 2).blk t).view.read (Elt Ideal) (outsAt0 m c t.val t.isLt) := by
  show (cfg0.win 2).cut (grid0.coords t) ((dats m 0 c).after 2 t) = _
  rw [after0_2]
  have hz : (fun a => win0_2.index t a * main_v2.ty.shape.size a) = fun _ => 0 :=
    funext fun a => match a with
      | ⟨0, _⟩ => by show win0_2.index t 0 * 1 = 0; rw [(out_index t).1]
      | ⟨1, _⟩ => by show win0_2.index t 1 * 2 = 0; rw [(out_index t).2]
  exact (Memref.read_access_unit_zero (Elt Ideal) main_v2 hz (fun a => by rw [congrFun hz a]; simp)
    (outsAt0 m c t.val t.isLt)).symm

/-- The one write-back happens after the last point, so it writes the accumulator after the last point. -/
theorem flushed_last (c : Dev nD) (t : Fin cfg0.N) (hf : (cfg0.win 2).flush t = true) :
    (dats m 0 c).flushed 2 t = ((cfg0.win 2).blk t).view.read (Elt Ideal) (lastAcc m c) := by
  have hN : cfg0.N = 128 := N_0
  have h127 : t.val = 127 := by have := (flush0_2 t).mp hf; have := t.isLt; omega
  obtain rfl : t = lastPoint := Fin.ext h127
  exact flushed_at m c lastPoint

/-- The output window's block has the array's own extents at every point. -/
theorem out_extent : ∀ t : Fin cfg0.N, win0_2.xsize (grid0.coords t) 0 = 1 ∧ win0_2.xsize (grid0.coords t) 1 = 2 :=
  (by decide +kernel : ∀ t : Fin grid0.N, win0_2.xsize (grid0.coords t) 0 = 1 ∧ win0_2.xsize (grid0.coords t) 1 = 2)

/-- So the block at any point holds every entry of the [1, 2] array. -/
theorem block_covers (t : Fin cfg0.N) (i : ((cfg0.win 2).arr.view.loc ((0 : Dev nD).tc : Thread nD τ)).2.ty.Idx) :
    i ∈ ((cfg0.win 2).blk t).view.set := by
  show i ∈ ((View.whole main_v2).slice (win0_2.rect t)).set
  rw [View.set_slice_whole, Rect.mem_set_unit]
  intro a
  match a with
  | ⟨0, _⟩ =>
    show win0_2.index t 0 * win0_2.size 0 ≤ (i 0 : Nat)
      ∧ (i 0 : Nat) < win0_2.index t 0 * win0_2.size 0 + win0_2.xsize (grid0.coords t) 0
    have h0 : (i 0 : Nat) < 1 := (i 0).isLt
    rw [(out_index t).1, (out_extent t).1]
    omega
  | ⟨1, _⟩ =>
    show win0_2.index t 1 * win0_2.size 1 ≤ (i 1 : Nat)
      ∧ (i 1 : Nat) < win0_2.index t 1 * win0_2.size 1 + win0_2.xsize (grid0.coords t) 1
    have h1 : (i 1 : Nat) < 2 := (i 1).isLt
    rw [(out_index t).2, (out_extent t).2]
    omega

/-- So the result array ends holding the accumulator after the last point. -/
theorem final_acc (c : Dev nD) : (dats m 0 c).arrAt 2 cfg0.N = lastAcc m c :=
  (dats m 0 c).arrAt_eq_of_cover 2 (lastAcc m c) (flushed_last m c) fun i =>
    ⟨lastPoint, (flush0_2 lastPoint).mpr rfl, block_covers lastPoint i⟩

end Cert.KernelIdeal.Totals

end
-- ==== Proof.Result.lean ====
/-
  The kernel's result and its run.

  After the region the host takes entry [0, 0] (the IoU-loss total) and entry [0, 1] (the cross-entropy total) out of the
  [1, 2] result array, divides each by the anchor count, weights the cross-entropy mean by 0.2 and adds the two: the
  specification's `combine` of the two totals, which the running totals have shown to be the totals over all anchors.
-/
import proofs.«109200_j10067403341969_1_alg».proof.Proof.Totals

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Totals Cert.BoxLoss

variable (m : (ℓ : Loc nD τ sig) → Buf (Elt Ideal) ℓ) (ρ : Dev nD → PrngReg)

/-! ## One entry of the [1, 2] array as a scalar -/

section Entries
variable {α : Type}

theorem entry0 (X : S1x2.Idx → α) (hs : S1x2.Slices ![0, 0] S1x1) (hc : S1x1.ShapeCasts S_) (j : S_.Idx) :
    shapeCast S_ (extractStridedSlice S1x1 ![0, 0] X hs) hc j = X (ix2 0 0) :=
  (shapeCast_apply _ hc j (ix2 0 0) rfl).trans
    (extractStridedSlice_apply _ X hs _ _ fun a => match a with | ⟨0, _⟩ => rfl | ⟨1, _⟩ => rfl)

theorem entry1 (X : S1x2.Idx → α) (hs : S1x2.Slices ![0, 1] S1x1) (hc : S1x1.ShapeCasts S_) (j : S_.Idx) :
    shapeCast S_ (extractStridedSlice S1x1 ![0, 1] X hs) hc j = X (ix2 0 1) :=
  (shapeCast_apply _ hc j (ix2 0 0) rfl).trans
    (extractStridedSlice_apply _ X hs _ _ fun a => match a with | ⟨0, _⟩ => rfl | ⟨1, _⟩ => rfl)

end Entries

/-! ## The host lines after the region -/

/-- The program's result buffer ends at the specification's total of the argument arrays. -/
theorem tail_eq (c : Dev nD) :
    Pipeline.afterTail₀ cfgs (dats m) 0 (V0 m) [hostOps1] c main_v10 = fun _ => total (preds m c) (targets m c) := by
  unfold Pipeline.afterTail₀
  show StableHlo.after hostOps1 _ (Proc.devRef .tc main_v10) = _
  after_results
  rw [(Pipeline.withArrays_arr spec0 launch0.win.arr_inj c _ _ 2).trans (final_acc m c)]
  funext j
  unfold total combine
  rw [← lastAcc_iou m c, ← lastAcc_bce m c]
  exact congrArg₂ FloatOps.addf
    (congrArg (FloatOps.mulf _) (congrArg (FloatOps.hostDivf · _) (entry1 _ _ _ j)))
    (congrArg (FloatOps.hostDivf · _) (entry0 _ _ _ j))

/-! ## The run -/

/-- Every weakly fair execution of the idealized kernel's @main ends with the result buffer at the specification's total
    and the two arguments unchanged. -/
theorem run : θ_run defs (onTc (τ := τ) (main (F := Ideal))) ⟨m, fun _ => 0, ρ⟩ (fun r => ∀ c : Dev nD,
      r.2.mem ((c.tc : Thread nD τ).loc main_v10) = (fun _ => total (preds m c) (targets m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.lean ====
/-
  A box-regression loss over 4,194,304 anchors: the kernel against its reference.

  Both programs take predictions and targets of shape [4194304, 5]. Column 0 is an objectness logit against its label,
  columns 1 … 4 are box corners: the predicted corners are the logistic function of the logits. Per anchor there is a
  cross-entropy term  max(x, 0) − x·y + log(1 + exp(−|x|))  and an IoU-loss term  1 − IoU  (the IoU set to 0 where the
  overlap product is negative). The result is  0.2 · mean(cross-entropy) + mean(IoU loss).

  The reference forms both terms as vectors of length 4,194,304 and sums each at once. The kernel transposes the arrays,
  walks 128 grid points of 32,768 anchors, and at each point adds the block's two lane sums into a [1, 2] accumulator
  that the first point zeroes and the last point writes back; the host lines after the region divide and combine.

  The two results are equal as extended reals:
    * per anchor the two programs apply the same operations (the kernel's logistic is the reference's quotient
      1 / (1 + exp(−x)), and the kernel's 0 − |x| is the reference's −|x|);
    * the kernel's nested total, block sums added one grid point after another from zero, is the sum over all anchors,
      because addition on the extended reals is commutative and associative — no finiteness of the inputs is used.

  The three frames are the generated ones (the reference's is its generated run with the result dropped); the
  idealization rewrote no operation of the kernel, so that claim is trivial.
-/
import proofs.«109200_j10067403341969_1_alg».proof.Defs
import proofs.«109200_j10067403341969_1_alg».proof.Proof.Gen.Kernel
import proofs.«109200_j10067403341969_1_alg».proof.Proof.Gen.Kernel.Skeleton
import proofs.«109200_j10067403341969_1_alg».proof.Proof.Gen.Kernel.Launch
import proofs.«109200_j10067403341969_1_alg».proof.Proof.Gen.Kernel.Points
import proofs.«109200_j10067403341969_1_alg».proof.Proof.Gen.Kernel.Frame
import proofs.«109200_j10067403341969_1_alg».proof.Proof.Gen.KernelIdeal
import proofs.«109200_j10067403341969_1_alg».proof.Proof.Gen.KernelIdeal.Skeleton
import proofs.«109200_j10067403341969_1_alg».proof.Proof.Gen.KernelIdeal.Launch
import proofs.«109200_j10067403341969_1_alg».proof.Proof.Gen.KernelIdeal.Points
import proofs.«109200_j10067403341969_1_alg».proof.Proof.Gen.KernelIdeal.Frame
import proofs.«109200_j10067403341969_1_alg».proof.Proof.Gen.ReferenceIdeal
import proofs.«109200_j10067403341969_1_alg».proof.Proof.Gen.Pre_finite_inputs
import proofs.«109200_j10067403341969_1_alg».proof.Proof.Gen.ReferenceIdeal.Run
import proofs.«109200_j10067403341969_1_alg».proof.Proof.Gen.ReferenceIdeal.Read
import proofs.«109200_j10067403341969_1_alg».proof.Proof.RefTotal
import proofs.«109200_j10067403341969_1_alg».proof.Proof.Result
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the specification's loss of the (agreeing) argument arrays. -/
theorem algebraic : Cert.algebraic_KernelIdeal_ReferenceIdeal := by
  intro m ρ m' ρ' _ hagree
  refine ⟨fun c _ => Cert.BoxLoss.total (Cert.KernelIdeal.Blocks.preds m c) (Cert.KernelIdeal.Blocks.targets m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v93_eq, (hagree c).1, (hagree c).2]
  funext j
  rw [ValueIdx.eq_ix0 j]
  exact Cert.ReferenceIdeal.RefTotal.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
